-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x224x224 : Shape := ⟨3, ![2048, 224, 224]⟩
abbrev S2048x4 : Shape := ⟨2, ![2048, 4]⟩
abbrev S_ : Shape := ⟨0, ![]⟩

class Facts : Prop where
  bcast_S_S2048x224x224 : S_.BroadcastsInDim S2048x224x224 (![] : Fin 0 → Fin S2048x224x224.rank)
  reducesTo_S2048x224x224_S_d0_1_2 : S2048x224x224.ReducesTo [0, 1, 2] S_
  h_S_ : 0 < S_.numel

variable [Facts]

def fn {F : FTy → Type} [FloatOps F] (main_arg0 : FVec F S2048x224x224 .f32) (main_arg1 : IVec S2048x4 32) : IVec S_ 1 :=
  let main_v0 : FVec F S2048x224x224 .f32 := Host.absf main_arg0
  let main_cst : FVec F S_ .f32 := constant S_ .f32 0x7F800000#32
  let main_v1 : FVec F S2048x224x224 .f32 := broadcastInDim S2048x224x224 ![] bcast_S_S2048x224x224 main_cst
  let main_v2 : IVec S2048x224x224 1 := cmpf .olt main_v0 main_v1
  let main_c : IVec S_ 1 := constantI S_ 1 1#1
  let main_v3 : IVec S_ 1 := (fun x v => Host.reduce IntOp.andi x v reducesTo_S2048x224x224_S_d0_1_2 h_S_) main_v2 main_c
  main_v3
-- ==== Kernel.lean ====
abbrev S2048x224x224 : Shape := ⟨3, ![2048, 224, 224]⟩
abbrev S2048x4 : Shape := ⟨2, ![2048, 4]⟩
abbrev S2048x1 : Shape := ⟨2, ![2048, 1]⟩
abbrev S16x224x224 : Shape := ⟨3, ![16, 224, 224]⟩
abbrev S16x4 : Shape := ⟨2, ![16, 4]⟩
abbrev S16x1 : Shape := ⟨2, ![16, 1]⟩
abbrev S16x224 : Shape := ⟨2, ![16, 224]⟩
abbrev S16x224x1 : Shape := ⟨3, ![16, 224, 1]⟩
abbrev S16x1x1 : Shape := ⟨3, ![16, 1, 1]⟩
abbrev S2048 : Shape := ⟨1, ![2048]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S2048x224x224, .f32⟩
  | .hbm, ⟨1, _⟩ => ⟨S2048x4, .i32⟩
  | .hbm, ⟨2, _⟩ => ⟨S2048x1, .f32⟩
  | .hbm, ⟨3, _⟩ => ⟨S2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16x224x224, .f32⟩
  | .local _ .vmem, ⟨1, _⟩ => ⟨S16x224x224, .f32⟩
  | .local _ .vmem, ⟨2, _⟩ => ⟨S16x4, .i32⟩
  | .local _ .vmem, ⟨3, _⟩ => ⟨S16x4, .i32⟩
  | .local _ .vmem, ⟨4, _⟩ => ⟨S16x1, .f32⟩
  | .local _ .vmem, ⟨5, _⟩ => ⟨S16x1, .f32⟩
  | _, _ => ⟨S2048x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x224x224_S16x224x224_0_0_0 : ∀ a, (![0, 0, 0] : Fin 3 → Nat) a + S16x224x224.size a ≤ S16x224x224.size a
  h_S16x224x224 : 0 < S16x224x224.numel
  reduces_S16x224x224_S16x224 : S16x224x224.Reduces [2] S16x224
  shapeCasts_S16x224_S16x224x1 : S16x224.ShapeCasts S16x224x1
  reduces_S16x224x1_S16x1 : S16x224x1.Reduces [1] S16x1
  shapeCasts_S16x1_S16x1x1 : S16x1.ShapeCasts S16x1x1
  broadcasts_S16x1x1_S16x224x224 : S16x1x1.Broadcasts S16x224x224
  inb_S16x4_S16x4_0_0 : ∀ a, (![0, 0] : Fin 2 → Nat) a + S16x4.size a ≤ S16x4.size a
  h_S16x4 : 0 < S16x4.numel
  slices_S16x4_o0_0_S16x1 : S16x4.Slices ![0, 0] S16x1
  slices_S16x4_o0_1_S16x1 : S16x4.Slices ![0, 1] S16x1
  slices_S16x4_o0_2_S16x1 : S16x4.Slices ![0, 2] S16x1
  slices_S16x4_o0_3_S16x1 : S16x4.Slices ![0, 3] S16x1
  iota_S16x224x224_d1_w32 : S16x224x224.Iotas .tc 32 [1]
  iota_S16x224x224_d2_w32 : S16x224x224.Iotas .tc 32 [2]
  natLt_1_32 : 1 < 32
  shapeCasts_S16x1x1_S16x1 : S16x1x1.ShapeCasts S16x1
  inb_S16x1_S16x1_0_0 : ∀ a, (![0, 0] : Fin 2 → Nat) a + S16x1.size a ≤ S16x1.size a
  h_S16x1 : 0 < S16x1.numel
  shapeCasts_S2048x1_S2048 : S2048x1.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x224x224.size a ≤ S2048x224x224.size a
  hwx0_0 : ∀ i : grid0.Coords, EltTy.bits .f32 = 32 ∨ (Rect.block (s := S2048x224x224) S16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S2048x4.size a
  hwx0_1 : ∀ i : grid0.Coords, EltTy.bits .i32 = 32 ∨ (Rect.block (s := S2048x4) S16x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S2048x1.size a
  hwx0_2 : ∀ i : grid0.Coords, EltTy.bits .f32 = 32 ∨ (Rect.block (s := S2048x1) S16x1.size (cc0_transform_2 i) (hinb0_2 i)).WholeWords (EltTy.packing .f32)

variable [Facts₀]

abbrev win0_0 : Pipeline.Window sig grid0 :=
  Pipeline.Window.ofSpec (Memref.whole main_arg0) S16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x224x224 : Shape := ⟨3, ![2048, 224, 224]⟩
abbrev S2048x4 : Shape := ⟨2, ![2048, 4]⟩
abbrev S2048x50176 : Shape := ⟨2, ![2048, 50176]⟩
abbrev S_ : Shape := ⟨0, ![]⟩
abbrev S2048 : Shape := ⟨1, ![2048]⟩
abbrev S2048x1 : Shape := ⟨2, ![2048, 1]⟩
abbrev S224 : Shape := ⟨1, ![224]⟩
abbrev S1x224x1 : Shape := ⟨3, ![1, 224, 1]⟩
abbrev S1x1x224 : Shape := ⟨3, ![1, 1, 224]⟩
abbrev S2048x1x1 : Shape := ⟨3, ![2048, 1, 1]⟩
abbrev S2048x224x1 : Shape := ⟨3, ![2048, 224, 1]⟩
abbrev S2048x1x224 : Shape := ⟨3, ![2048, 1, 224]⟩

abbrev nBuf : Space → Nat
  | .hbm => 103
  | .vmem => 0
  | .smem => 0
  | _ => 0

abbrev bufTy : (tb : Table) → Fin (tcTables nBuf tb) → BufTy
  | .hbm, ⟨0, _⟩ => ⟨S2048x224x224, .f32⟩
  | .hbm, ⟨1, _⟩ => ⟨S2048x4, .i32⟩
  | .hbm, ⟨2, _⟩ => ⟨S2048x50176, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x50176, .f32⟩
  | .hbm, ⟨10, _⟩ => ⟨S2048x50176, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x50176, .f32⟩
  | .hbm, ⟨16, _⟩ => ⟨S2048x50176, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x50176, .f32⟩
  | .hbm, ⟨24, _⟩ => ⟨S2048x50176, .f32⟩
  | .hbm, ⟨25, _⟩ => ⟨S2048x224x224, .f32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S224, .i32⟩
  | .hbm, ⟨67, _⟩ => ⟨S1x224x1, .i32⟩
  | .hbm, ⟨68, _⟩ => ⟨S224, .i32⟩
  | .hbm, ⟨69, _⟩ => ⟨S1x1x224, .i32⟩
  | .hbm, ⟨70, _⟩ => ⟨S2048x1x1, .i32⟩
  | .hbm, ⟨71, _⟩ => ⟨S2048x224x1, .i32⟩
  | .hbm, ⟨72, _⟩ => ⟨S2048x224x1, .i32⟩
  | .hbm, ⟨73, _⟩ => ⟨S2048x224x1, .i1⟩
  | .hbm, ⟨74, _⟩ => ⟨S2048x1x1, .i32⟩
  | .hbm, ⟨75, _⟩ => ⟨S2048x224x1, .i32⟩
  | .hbm, ⟨76, _⟩ => ⟨S2048x224x1, .i32⟩
  | .hbm, ⟨77, _⟩ => ⟨S2048x224x1, .i1⟩
  | .hbm, ⟨78, _⟩ => ⟨S2048x224x1, .i1⟩
  | .hbm, ⟨79, _⟩ => ⟨S2048x1x1, .i32⟩
  | .hbm, ⟨80, _⟩ => ⟨S2048x1x224, .i32⟩
  | .hbm, ⟨81, _⟩ => ⟨S2048x1x224, .i32⟩
  | .hbm, ⟨82, _⟩ => ⟨S2048x1x224, .i1⟩
  | .hbm, ⟨83, _⟩ => ⟨S2048x224x224, .i1⟩
  | .hbm, ⟨84, _⟩ => ⟨S2048x224x224, .i1⟩
  | .hbm, ⟨85, _⟩ => ⟨S2048x224x224, .i1⟩
  | .hbm, ⟨86, _⟩ => ⟨S2048x1x1, .i32⟩
  | .hbm, ⟨87, _⟩ => ⟨S2048x1x224, .i32⟩
  | .hbm, ⟨88, _⟩ => ⟨S2048x1x224, .i32⟩
  | .hbm, ⟨89, _⟩ => ⟨S2048x1x224, .i1⟩
  | .hbm, ⟨90, _⟩ => ⟨S2048x224x224, .i1⟩
  | .hbm, ⟨91, _⟩ => ⟨S2048x224x224, .i1⟩
  | .hbm, ⟨92, _⟩ => ⟨S2048x224x224, .f32⟩
  | .hbm, ⟨93, _⟩ => ⟨S_, .f32⟩
  | .hbm, ⟨94, _⟩ => ⟨S2048x224x224, .f32⟩
  | .hbm, ⟨95, _⟩ => ⟨S2048x224x224, .f32⟩
  | .hbm, ⟨96, _⟩ => ⟨S2048x224x224, .f32⟩
  | .hbm, ⟨97, _⟩ => ⟨S_, .f32⟩
  | .hbm, ⟨98, _⟩ => ⟨S2048, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S2048x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_9 : Ref sig .tc := ⟨.hbm, 58, rfl⟩
abbrev main_c_10 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩

abbrev nD : Nat := 1
abbrev τ : Topo := Topo.v7x

variable {F : FTy → Type} [FloatOps F]

class Facts₀ : Prop where
  shapeCasts_S2048x224x224_S2048x50176 : S2048x224x224.ShapeCasts S2048x50176
  reducesTo_S2048x50176_S2048_d1 : S2048x50176.ReducesTo [1] S2048
  h_S_ : 0 < S_.numel
  bcast_S2048_S2048x1_0 : S2048.BroadcastsInDim S2048x1 (![0] : Fin 1 → Fin S2048x1.rank)
  bcast_S2048x1_S2048x50176_0_1 : S2048x1.BroadcastsInDim S2048x50176 (![0, 1] : Fin 2 → Fin S2048x50176.rank)
  bcast_S_S2048x1 : S_.BroadcastsInDim S2048x1 (![] : Fin 0 → Fin S2048x1.rank)
  shapeCasts_S2048x50176_S2048x224x224 : S2048x50176.ShapeCasts S2048x224x224
  slices_S2048x4_S2048x1_0_0 : S2048x4.Slices ![0, 0] S2048x1
  shapeCasts_S2048x1_S2048 : S2048x1.ShapeCasts S2048
  bcast_S_S2048 : S_.BroadcastsInDim S2048 (![] : Fin 0 → Fin S2048.rank)
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S224_S1x224x1_1 : S224.BroadcastsInDim S1x224x1 (![1] : Fin 1 → Fin S1x224x1.rank)
  bcast_S224_S1x1x224_2 : S224.BroadcastsInDim S1x1x224 (![2] : Fin 1 → Fin S1x1x224.rank)
  bcast_S2048_S2048x1x1_0 : S2048.BroadcastsInDim S2048x1x1 (![0] : Fin 1 → Fin S2048x1x1.rank)
  bcast_S1x224x1_S2048x224x1_0_1_2 : S1x224x1.BroadcastsInDim S2048x224x1 (![0, 1, 2] : Fin 3 → Fin S2048x224x1.rank)
  bcast_S2048x1x1_S2048x224x1_0_1_2 : S2048x1x1.BroadcastsInDim S2048x224x1 (![0, 1, 2] : Fin 3 → Fin S2048x224x1.rank)
  bcast_S1x1x224_S2048x1x224_0_1_2 : S1x1x224.BroadcastsInDim S2048x1x224 (![0, 1, 2] : Fin 3 → Fin S2048x1x224.rank)
  bcast_S2048x1x1_S2048x1x224_0_1_2 : S2048x1x1.BroadcastsInDim S2048x1x224 (![0, 1, 2] : Fin 3 → Fin S2048x1x224.rank)
  bcast_S2048x224x1_S2048x224x224_0_1_2 : S2048x224x1.BroadcastsInDim S2048x224x224 (![0, 1, 2] : Fin 3 → Fin S2048x224x224.rank)
  bcast_S2048x1x224_S2048x224x224_0_1_2 : S2048x1x224.BroadcastsInDim S2048x224x224 (![0, 1, 2] : Fin 3 → Fin S2048x224x224.rank)
  bcast_S_S2048x224x224 : S_.BroadcastsInDim S2048x224x224 (![] : Fin 0 → Fin S2048x224x224.rank)
  reducesTo_S2048x224x224_S2048_d1_2 : S2048x224x224.ReducesTo [1, 2] S2048
  reducesTo_S2048_S_d0 : S2048.ReducesTo [0] S_

variable [Facts₀]

class Facts : Prop extends Facts₀ where

variable [Facts]
-- ==== Proof.ImageLoss.lean ====
/-
  The loss of ONE image, as a function of its 224 × 224 entries and of its box, a row of four words.

  With lo and hi the least and greatest entry, every entry is first rescaled to (x − lo) / ((hi − lo) + ε), then
  divided by the sum of all rescaled entries plus ε; each of these shares is weighted by 1 minus the indicator of
  the clipped box (rows between the clipped words 1 and 3, columns between the clipped words 0 and 2, both ends
  included), and the weighted shares are summed. The extended reals' minimum, maximum and sum are associative and
  commutative, so each of the three may be taken over the 50176 entries in one pass or row by row: the three
  regrouping laws at the end, which hold for any starting value.
-/
import Idealize.ShloMosaic.PureOps.Ideal.Laws
import Idealize.ShloMosaic.Lib.ValueIdx

noncomputable section

open scoped BigOperators

namespace ImageLoss

open Idealize.ShloMosaic

/-- One image: its entry at a row and a column. -/
abbrev Img := Fin 224 → Fin 224 → EReal
/-- One box: its four words. -/
abbrev Box := Fin 4 → BitVec 32

/-- The starting values of the minimum and of the maximum, the small constant ε and the constant one, each the value
    of the binary word both programs write. Nothing below depends on which four values these are. -/
def top : EReal := Ideal.ofBits .f32 0x7F800000#32
def bot : EReal := Ideal.ofBits .f32 0xFF800000#32
def eps : EReal := Ideal.ofBits .f32 0x322BCC77#32
def one : EReal := Ideal.ofBits .f32 0x3F800000#32

/-- The least entry: the minimum of the rows' minima. -/
def lo (f : Img) : EReal :=
  (Finset.univ : Finset (Fin 224)).fold min top fun r => (Finset.univ : Finset (Fin 224)).fold min top fun c => f r c

/-- The greatest entry: the maximum of the rows' maxima. -/
def hi (f : Img) : EReal :=
  (Finset.univ : Finset (Fin 224)).fold max bot fun r => (Finset.univ : Finset (Fin 224)).fold max bot fun c => f r c

/-- An entry rescaled by the image's range. -/
def scaled (f : Img) (r c : Fin 224) : EReal := Ideal.div (f r c - lo f) ((hi f - lo f) + eps)

/-- The sum of the rescaled entries, row by row. -/
def mass (f : Img) : EReal := ∑ r : Fin 224, ∑ c : Fin 224, scaled f r c

/-- An entry's share of the mass. -/
def share (f : Img) (r c : Fin 224) : EReal := Ideal.div (scaled f r c) (mass f + eps)

/-- A word clipped to 0 … 223, read signed. -/
def clip (v : BitVec 32) : BitVec 32 := IntOp.minsi 223#32 (IntOp.maxsi 0#32 v)

/-- The bit that says (r, c) lies in the clipped box. -/
def inBox (bx : Box) (r c : Fin 224) : BitVec 1 :=
  IntOp.andi
    (IntOp.andi
      (IntOp.andi (IntOp.cmpi .sge (BitVec.ofNat 32 r.val) (clip (bx 1))) (IntOp.cmpi .sle (BitVec.ofNat 32 r.val) (clip (bx 3))))
      (IntOp.cmpi .sge (BitVec.ofNat 32 c.val) (clip (bx 0))))
    (IntOp.cmpi .sle (BitVec.ofNat 32 c.val) (clip (bx 2)))

/-- One minus the box's indicator. -/
def weight (bx : Box) (r c : Fin 224) : EReal := one - (((inBox bx r c).toNat : ℝ) : EReal)

/-- The image's loss: its shares outside the box, summed row by row. -/
def outside (f : Img) (bx : Box) : EReal := ∑ r : Fin 224, ∑ c : Fin 224, share f r c * weight bx r c

/-! ## A one-bit word widened to 32 bits and read signed is the bit read unsigned -/

theorem toInt_setWidth_bit (b : BitVec 1) : ((b.setWidth 32).toInt : ℝ) = (b.toNat : ℝ) := by
  have h : ∀ b : BitVec 1, (b.setWidth 32).toInt = (b.toNat : ℤ) := by decide
  rw [h b]; norm_cast

/-! ## The flattened image -/

/-- The row and the column of a position of the flattened image, and the position of a row and a column. -/
def rowOf (k : Fin 50176) : Fin 224 := ⟨k.val / 224, by have := k.isLt; omega⟩
def colOf (k : Fin 50176) : Fin 224 := ⟨k.val % 224, by omega⟩
def posOf (r c : Fin 224) : Fin 50176 := ⟨r.val * 224 + c.val, by have := r.isLt; have := c.isLt; omega⟩

theorem rowOf_posOf (r c : Fin 224) : rowOf (posOf r c) = r :=
  Fin.ext (by show (r.val * 224 + c.val) / 224 = r.val; have := c.isLt; omega)
theorem colOf_posOf (r c : Fin 224) : colOf (posOf r c) = c :=
  Fin.ext (by show (r.val * 224 + c.val) % 224 = c.val; have := c.isLt; omega)
theorem posOf_rowOf_colOf (k : Fin 50176) : posOf (rowOf k) (colOf k) = k :=
  Fin.ext (by show k.val / 224 * 224 + k.val % 224 = k.val; omega)

/-- The positions of the flattened image are the pairs of a row and a column. -/
def posEquiv : Fin 50176 ≃ Fin 224 × Fin 224 where
  toFun k := (rowOf k, colOf k)
  invFun p := posOf p.1 p.2
  left_inv k := posOf_rowOf_colOf k
  right_inv p := Prod.ext (rowOf_posOf p.1 p.2) (colOf_posOf p.1 p.2)

/-! ## The three regrouping laws -/

/-- A minimum over the flattened image is the minimum of the rows' minima, from any starting value. -/
theorem fold_min_rows (b : EReal) (g : Img) :
    (Finset.univ : Finset (Fin 50176)).fold min b (fun k => g (rowOf k) (colOf k))
      = (Finset.univ : Finset (Fin 224)).fold min b fun r => (Finset.univ : Finset (Fin 224)).fold min b fun c => g r c := by
  apply le_antisymm
  · refine (Finset.le_fold_min _).2 ⟨(Finset.fold_min_le _).2 (Or.inl le_rfl), fun r _ => ?_⟩
    refine (Finset.le_fold_min _).2 ⟨(Finset.fold_min_le _).2 (Or.inl le_rfl), fun c _ => ?_⟩
    refine (Finset.fold_min_le _).2 (Or.inr ⟨posOf r c, Finset.mem_univ _, ?_⟩)
    rw [rowOf_posOf, colOf_posOf]
  · refine (Finset.le_fold_min _).2 ⟨(Finset.fold_min_le _).2 (Or.inl le_rfl), fun k _ => ?_⟩
    refine (Finset.fold_min_le _).2 (Or.inr ⟨rowOf k, Finset.mem_univ _, ?_⟩)
    exact (Finset.fold_min_le _).2 (Or.inr ⟨colOf k, Finset.mem_univ _, le_rfl⟩)

/-- A maximum over the flattened image is the maximum of the rows' maxima, from any starting value. -/
theorem fold_max_rows (b : EReal) (g : Img) :
    (Finset.univ : Finset (Fin 50176)).fold max b (fun k => g (rowOf k) (colOf k))
      = (Finset.univ : Finset (Fin 224)).fold max b fun r => (Finset.univ : Finset (Fin 224)).fold max b fun c => g r c := by
  apply le_antisymm
  · refine (Finset.fold_max_le _).2 ⟨(Finset.le_fold_max _).2 (Or.inl le_rfl), fun k _ => ?_⟩
    refine (Finset.le_fold_max _).2 (Or.inr ⟨rowOf k, Finset.mem_univ _, ?_⟩)
    exact (Finset.le_fold_max _).2 (Or.inr ⟨colOf k, Finset.mem_univ _, le_rfl⟩)
  · refine (Finset.fold_max_le _).2 ⟨(Finset.le_fold_max _).2 (Or.inl le_rfl), fun r _ => ?_⟩
    refine (Finset.fold_max_le _).2 ⟨(Finset.le_fold_max _).2 (Or.inl le_rfl), fun c _ => ?_⟩
    refine (Finset.le_fold_max _).2 (Or.inr ⟨posOf r c, Finset.mem_univ _, ?_⟩)
    rw [rowOf_posOf, colOf_posOf]

/-- A sum over the flattened image is the sum of the rows' sums. -/
theorem sum_rows {M : Type*} [AddCommMonoid M] (g : Fin 224 → Fin 224 → M) :
    ∑ k : Fin 50176, g (rowOf k) (colOf k) = ∑ r : Fin 224, ∑ c : Fin 224, g r c := by
  rw [← Fintype.sum_prod_type']
  exact Fintype.sum_equiv posEquiv _ _ (fun _ => rfl)

end ImageLoss

end
-- ==== Proof.MeanLoss.lean ====
/-
  The loss of the whole batch: the mean of the 2048 images' losses.

  Both programs end the same way on the host: the 2048 per-image losses are summed from the zero word and the sum is
  divided by the word of 2048.0. That last stretch is named once here, so that the two results are one term of the
  vector of per-image losses and the stretch itself is never opened.
-/
import Idealize.ShloMosaic.PureOps
import Idealize.ShloMosaic.PureOps.Ideal
import proofs.«403167_j52673478918728_3_alg».proof.Proof.ImageLoss

noncomputable section

namespace ImageLoss

open Idealize.ShloMosaic Idealize.ShloMosaic.ValueIdx

/-- The image an entry of a vector of 2048 belongs to. -/
def imageOf (j : (⟨1, ![2048]⟩ : Shape).Idx) : Fin 2048 := ⟨(j 0).val, (j 0).isLt⟩

theorem imageOf_ix1 (b : Fin 2048) : imageOf (ix1 b) = b := rfl

/-- All images' losses: entry b is the loss of image b of the array under box b of the boxes. -/
def lossOf (X : (⟨3, ![2048, 224, 224]⟩ : Shape).Idx → EReal) (B : (⟨2, ![2048, 4]⟩ : Shape).Idx → BitVec 32) :
    FVec Ideal ⟨1, ![2048]⟩ .f32 :=
  fun j => outside (fun r c => X (ix3 (imageOf j) r c)) (fun k => B (ix2 (imageOf j) k))

/-- The mean of 2048 values as both programs take it on the host. -/
def meanOf (Y : FVec Ideal ⟨1, ![2048]⟩ .f32) (h : (⟨1, ![2048]⟩ : Shape).ReducesTo [0] ⟨0, ![]⟩)
    (hu : 0 < (⟨0, ![]⟩ : Shape).numel) : FVec Ideal ⟨0, ![]⟩ .f32 :=
  Host.divf (Host.reduceAdd Y (constant ⟨0, ![]⟩ .f32 0x00000000#32) h hu) (constant ⟨0, ![]⟩ .f32 0x45000000#32)

end ImageLoss

end
-- ==== Proof.RefImage.lean ====
/-
  The reference, image by image.

  The reference flattens each image to 50176 entries, takes its minimum, maximum and sum in one pass each, and views the
  result as [2048, 224, 224] again before it weights and sums. Read at image b, every stage of it is the matching stage
  of ImageLoss at image b's entries and box; the one-pass minimum, maximum and sums become the row-by-row ones by the
  three regrouping laws.
-/
import proofs.«403167_j52673478918728_3_alg».proof.Proof.Gen.ReferenceIdeal.Read
import proofs.«403167_j52673478918728_3_alg».proof.Proof.ImageLoss
import Idealize.ShloMosaic.Lib.ValueIdx

noncomputable section

open scoped BigOperators

namespace Cert.ReferenceIdeal.RefImage

open Cert.ReferenceIdeal Cert.ReferenceIdeal.Gen Cert.ReferenceIdeal.Read
open Idealize.ShloMosaic Idealize.ShloMosaic.ValueIdx ImageLoss

/-- The two argument arrays at the exact instance. -/
abbrev Arr := (⟨S2048x224x224, .f32⟩ : BufTy).Contents (Elt Ideal)
abbrev Boxes := (⟨S2048x4, .i32⟩ : BufTy).Contents (Elt Ideal)

/-- Image b of the array, and box b of the boxes. -/
def img (X : Arr) (b : Fin 2048) : Img := fun r c => X (ix3 b r c)
def box (B : Boxes) (b : Fin 2048) : Box := fun k => B (ix2 b k)

/-! ## Indices -/

/-- Position k of flattened image b is entry (row of k, column of k) of image b. -/
theorem idx_flat (b : Fin 2048) (k : Fin 50176) : idx_main_v0 (ix2 b k) = ix3 b (rowOf k) (colOf k) := by
  funext a; apply Fin.ext
  have hk := k.isLt
  match a with
  | ⟨0, _⟩ => show (b.val * 50176 + k.val) / 50176 = b.val; omega
  | ⟨1, _⟩ => show (b.val * 50176 + k.val) / 224 % 224 = k.val / 224; omega
  | ⟨2, _⟩ => show (b.val * 50176 + k.val) % 224 = k.val % 224; omega

/-- Entry (r, c) of image b is position r · 224 + c of flattened image b. -/
theorem idx_unflat (b : Fin 2048) (r c : Fin 224) : idx_main_v18 (ix3 b r c) = ix2 b (posOf r c) := by
  funext a; apply Fin.ext
  have hr := r.isLt
  have hc := c.isLt
  match a with
  | ⟨0, _⟩ => show ((b.val * 224 + r.val) * 224 + c.val) / 50176 = b.val; omega
  | ⟨1, _⟩ => show ((b.val * 224 + r.val) * 224 + c.val) % 50176 = r.val * 224 + c.val; omega

/-- Position k put back into the reduced index b. -/
theorem lift_pos (h : S2048x50176.Reduces [1] S2048) (b : Fin 2048) (k : Fin (S2048x50176.size 1)) :
    h.lift (ix1 b) k = ix2 b (⟨k.val, k.isLt⟩ : Fin 50176) := by
  funext a; apply Fin.ext
  fin_cases a <;> rfl

theorem flat_value (X : Arr) (b : Fin 2048) (k : Fin 50176) : val_main_v0 (F := Ideal) X (ix2 b k) = img X b (rowOf k) (colOf k) := by
  rw [val_main_v0_apply, idx_flat]; rfl

/-! ## The image's least and greatest entry -/

theorem least (X : Arr) (b : Fin 2048) : val_main_v1 (F := Ideal) X (ix1 b) = lo (img X b) := by
  have h : S2048x50176.Reduces [1] S2048 := by decide
  unfold val_main_v1
  rw [Host.reduce_eq_fold_single _ _ _ _ h _]
  have e : (val_main_v0 (F := Ideal) X ∘ h.lift (ix1 b)) = fun k : Fin 50176 => img X b (rowOf k) (colOf k) :=
    funext fun k => by
      show val_main_v0 (F := Ideal) X (h.lift (ix1 b) k) = _
      rw [lift_pos, flat_value]; rfl
  rw [e]
  exact fold_min_rows _ _

theorem greatest (X : Arr) (b : Fin 2048) : val_main_v3 (F := Ideal) X (ix1 b) = hi (img X b) := by
  have h : S2048x50176.Reduces [1] S2048 := by decide
  unfold val_main_v3
  rw [Host.reduce_eq_fold_single _ _ _ _ h _]
  have e : (val_main_v0 (F := Ideal) X ∘ h.lift (ix1 b)) = fun k : Fin 50176 => img X b (rowOf k) (colOf k) :=
    funext fun k => by
      show val_main_v0 (F := Ideal) X (h.lift (ix1 b) k) = _
      rw [lift_pos, flat_value]; rfl
  rw [e]
  exact fold_max_rows _ _

/-! ## The rescaled entries, their sum, the shares -/

theorem col_least (X : Arr) (b : Fin 2048) (u : Fin 1) : val_main_v2 (F := Ideal) X (ix2 b u) = lo (img X b) := by
  rw [val_main_v2_apply, ← least]
  exact congrArg _ (funext fun a => by match a with | ⟨0, _⟩ => rfl)

theorem col_greatest (X : Arr) (b : Fin 2048) (u : Fin 1) : val_main_v4 (F := Ideal) X (ix2 b u) = hi (img X b) := by
  rw [val_main_v4_apply, ← greatest]
  exact congrArg _ (funext fun a => by match a with | ⟨0, _⟩ => rfl)

theorem idx_col5 (b : Fin 2048) (k : Fin 50176) : idx_main_v5 (ix2 b k) = ix2 b (0 : Fin 1) :=
  funext fun a => by match a with | ⟨0, _⟩ => rfl | ⟨1, _⟩ => rfl
theorem idx_col10 (b : Fin 2048) (k : Fin 50176) : idx_main_v10 (ix2 b k) = ix2 b (0 : Fin 1) :=
  funext fun a => by match a with | ⟨0, _⟩ => rfl | ⟨1, _⟩ => rfl
theorem idx_col16 (b : Fin 2048) (k : Fin 50176) : idx_main_v16 (ix2 b k) = ix2 b (0 : Fin 1) :=
  funext fun a => by match a with | ⟨0, _⟩ => rfl | ⟨1, _⟩ => rfl

theorem rescaled (X : Arr) (b : Fin 2048) (k : Fin 50176) :
    val_main_v11 (F := Ideal) X (ix2 b k) = scaled (img X b) (rowOf k) (colOf k) := by
  rw [val_main_v11_apply, val_main_v6_apply, val_main_v10_apply, val_main_v5_apply, idx_col5, idx_col10, val_main_v9_apply,
    val_main_v7_apply, col_least, col_greatest, flat_value]
  rfl

theorem total (X : Arr) (b : Fin 2048) : val_main_v12 (F := Ideal) X (ix1 b) = mass (img X b) := by
  rw [val_main_v12_apply]
  have e : ∀ k : Fin 50176, idx_main_v12 (ix1 b) k = ix2 b k := fun k =>
    funext fun a => by match a with | ⟨0, _⟩ => rfl | ⟨1, _⟩ => rfl
  simp only [e, rescaled]
  rw [sum_rows (fun r c => scaled (img X b) r c)]
  show Ideal.ofBits .f32 0x00000000#32 + _ = _
  rw [Ideal.ofBits_zero_f32, zero_add]; rfl

theorem col_total (X : Arr) (b : Fin 2048) (u : Fin 1) : val_main_v13 (F := Ideal) X (ix2 b u) = mass (img X b) := by
  rw [val_main_v13_apply, ← total]
  exact congrArg _ (funext fun a => by match a with | ⟨0, _⟩ => rfl)

theorem shared (X : Arr) (b : Fin 2048) (k : Fin 50176) :
    val_main_v17 (F := Ideal) X (ix2 b k) = share (img X b) (rowOf k) (colOf k) := by
  rw [val_main_v17_apply, val_main_v16_apply, idx_col16, val_main_v15_apply, col_total, rescaled]
  rfl

theorem shared_entry (X : Arr) (b : Fin 2048) (r c : Fin 224) :
    val_main_v18 (F := Ideal) X (ix3 b r c) = share (img X b) r c := by
  rw [val_main_v18_apply, idx_unflat, shared, rowOf_posOf, colOf_posOf]

/-! ## The box: its four clipped words, the indicator, the weight -/

theorem idx_word (o : Nat) (b : Fin 2048) (j : S2048x4.Idx) (h0 : (j 0).val = b.val / 1) (h1 : (j 1).val = o) (ho : o < 4) :
    j = ix2 b (⟨o, ho⟩ : Fin 4) := by
  funext a; apply Fin.ext
  match a with
  | ⟨0, _⟩ => show (j 0).val = b.val; omega
  | ⟨1, _⟩ => exact h1

theorem clip_word0 (B : Boxes) (b : Fin 2048) : val_main_v21 (F := Ideal) B (ix1 b) = clip (box B b 0) := by
  rw [val_main_v21_apply, val_main_call0_v4_apply, val_main_call0_v3_apply, val_main_c_4_apply, val_main_call0_v2_apply,
    val_main_call0_v1_apply, val_main_call0_v0_apply, val_main_c_apply, val_main_v20_apply, val_main_v19_apply,
    idx_word 0 b (idx_main_v19 (idx_main_v20 (ix1 b))) rfl rfl (by decide)]
  rfl

theorem clip_word1 (B : Boxes) (b : Fin 2048) : val_main_v24 (F := Ideal) B (ix1 b) = clip (box B b 1) := by
  rw [val_main_v24_apply, val_main_call1_v4_apply, val_main_call1_v3_apply, val_main_c_6_apply, val_main_call1_v2_apply,
    val_main_call1_v1_apply, val_main_call1_v0_apply, val_main_c_5_apply, val_main_v23_apply, val_main_v22_apply,
    idx_word 1 b (idx_main_v22 (idx_main_v23 (ix1 b))) rfl rfl (by decide)]
  rfl

theorem clip_word2 (B : Boxes) (b : Fin 2048) : val_main_v27 (F := Ideal) B (ix1 b) = clip (box B b 2) := by
  rw [val_main_v27_apply, val_main_call2_v4_apply, val_main_call2_v3_apply, val_main_c_8_apply, val_main_call2_v2_apply,
    val_main_call2_v1_apply, val_main_call2_v0_apply, val_main_c_7_apply, val_main_v26_apply, val_main_v25_apply,
    idx_word 2 b (idx_main_v25 (idx_main_v26 (ix1 b))) rfl rfl (by decide)]
  rfl

theorem clip_word3 (B : Boxes) (b : Fin 2048) : val_main_v30 (F := Ideal) B (ix1 b) = clip (box B b 3) := by
  rw [val_main_v30_apply, val_main_call3_v4_apply, val_main_call3_v3_apply, val_main_c_10_apply, val_main_call3_v2_apply,
    val_main_call3_v1_apply, val_main_call3_v0_apply, val_main_c_9_apply, val_main_v29_apply, val_main_v28_apply,
    idx_word 3 b (idx_main_v28 (idx_main_v29 (ix1 b))) rfl rfl (by decide)]
  rfl

/-- Every broadcast of a per-image word reads image b's word. -/
theorem idx_image (b : Fin 2048) (j : S2048.Idx) (h0 : (j 0).val = b.val) : j = ix1 b :=
  funext fun a => Fin.ext (by match a with | ⟨0, _⟩ => exact h0)

theorem indicator (B : Boxes) (b : Fin 2048) (r c : Fin 224) :
    val_main_v56 (F := Ideal) B (ix3 b r c) = inBox (box B b) r c := by
  simp only [val_main_v56_apply, val_main_v50_apply, val_main_v55_apply, val_main_v48_apply, val_main_v49_apply,
    val_main_v43_apply, val_main_v38_apply, val_main_v42_apply, val_main_v47_apply, val_main_v54_apply,
    val_main_v36_apply, val_main_v37_apply, val_main_v40_apply, val_main_v41_apply, val_main_v45_apply, val_main_v46_apply,
    val_main_v52_apply, val_main_v53_apply, val_main_v32_apply, val_main_v34_apply, val_main_v31_apply, val_main_v33_apply,
    val_main_v35_apply, val_main_v39_apply, val_main_v44_apply, val_main_v51_apply]
  rw [idx_image b (idx_main_v35 _) rfl, idx_image b (idx_main_v39 _) rfl, idx_image b (idx_main_v44 _) rfl,
    idx_image b (idx_main_v51 _) rfl, clip_word0, clip_word1, clip_word2, clip_word3]
  rfl

theorem weighted (B : Boxes) (b : Fin 2048) (r c : Fin 224) :
    val_main_v59 (F := Ideal) B (ix3 b r c) = weight (box B b) r c := by
  rw [val_main_v59_apply, val_main_v58_apply, val_main_cst_11_apply, val_main_v57_apply, indicator]
  rfl

theorem entry_loss (X : Arr) (B : Boxes) (b : Fin 2048) (r c : Fin 224) :
    val_main_v60 (F := Ideal) X B (ix3 b r c) = share (img X b) r c * weight (box B b) r c := by
  rw [val_main_v60_apply, shared_entry, weighted]
  rfl

/-! ## The image's loss -/

/-- The row and the column of an entry of the array. -/
def rowCol (i : S2048x224x224.Idx) : Fin 224 × Fin 224 := (⟨(i 1).val, (i 1).isLt⟩, ⟨(i 2).val, (i 2).isLt⟩)

/-- The reference sums the weighted shares of image b over its rows and columns at once: the entries of the array
    whose first coordinate is b are the pairs of a row and a column. -/
theorem image_loss (X : Arr) (B : Boxes) (b : Fin 2048) :
    val_main_v61 (F := Ideal) X B (ix1 b) = outside (img X b) (box B b) := by
  unfold val_main_v61
  show Ideal.hostReduceAdd reducesTo_S2048x224x224_S2048_d1_2 (val_main_v60 (F := Ideal) X B) (Ideal.ofBits .f32 0x00000000#32) (ix1 b) = _
  unfold Ideal.hostReduceAdd outside
  rw [Ideal.ofBits_zero_f32, zero_add, ← Fintype.sum_prod_type' (fun r c => share (img X b) r c * weight (box B b) r c)]
  have hfirst : ∀ i : S2048x224x224.Idx, reducesTo_S2048x224x224_S2048_d1_2.drop i = ix1 b → (i 0).val = b.val := fun i hi => by
    have h0 := Shape.ReducesTo.drop_apply_val_of_eq reducesTo_S2048x224x224_S2048_d1_2 i 0 0
    rw [hi] at h0
    exact h0.symm
  have hback : ∀ i : S2048x224x224.Idx, reducesTo_S2048x224x224_S2048_d1_2.drop i = ix1 b →
      ix3 b (rowCol i).1 (rowCol i).2 = i := fun i hi => by
    funext a; apply Fin.ext
    match a with
    | ⟨0, _⟩ => exact (hfirst i hi).symm
    | ⟨1, _⟩ => rfl
    | ⟨2, _⟩ => rfl
  refine Finset.sum_nbij' rowCol (fun rc => ix3 b rc.1 rc.2) ?_ ?_ ?_ ?_ ?_
  · intro i _; exact Finset.mem_univ _
  · intro rc _
    refine Finset.mem_filter.2 ⟨Finset.mem_univ _, funext fun a => Fin.ext ?_⟩
    match a with
    | ⟨0, _⟩ => exact Shape.ReducesTo.drop_apply_val_of_eq reducesTo_S2048x224x224_S2048_d1_2 (ix3 b rc.1 rc.2) 0 0
  · intro i hi; exact hback i (Finset.mem_filter.1 hi).2
  · intro rc _; rfl
  · intro i hi
    have e := hback i (Finset.mem_filter.1 hi).2
    exact (congrArg (val_main_v60 (F := Ideal) X B) e.symm).trans (entry_loss X B b _ _)

end Cert.ReferenceIdeal.RefImage

end
-- ==== Proof.BlockLayout.lean ====
/-
  A block of 16 images, [16, 224, 224], and the arrays the kernel body derives from it, read at an index.

  The body reduces over the columns (axis 2, into [16, 224]), views the result as a column [16, 224, 1], reduces over
  the rows (axis 1, into [16, 1]) and views that as [16, 1, 1]; such a per-image value is broadcast back over
  [16, 224, 224]. Read at image p each two-stage reduction is the reduction of image p's entries row by row.
-/
import Idealize.ShloMosaic.PureOps.Ideal.Laws
import Idealize.ShloMosaic.Lib.ValueIdx
import Idealize.ShloMosaic.Lib.Pipeline.Value
import proofs.«403167_j52673478918728_3_alg».proof.Proof.ImageLoss

noncomputable section

open scoped BigOperators

namespace BlockLayout

open Idealize.ShloMosaic Idealize.ShloMosaic.ValueIdx

/-- The block, its column-reduced form, that form as a column, and a per-image value in its two shapes. -/
abbrev T3 : Shape := ⟨3, ![16, 224, 224]⟩
abbrev T2 : Shape := ⟨2, ![16, 224]⟩
abbrev T2k : Shape := ⟨3, ![16, 224, 1]⟩
abbrev C2 : Shape := ⟨2, ![16, 1]⟩
abbrev C3 : Shape := ⟨3, ![16, 1, 1]⟩
/-- The block of boxes. -/
abbrev B2 : Shape := ⟨2, ![16, 4]⟩

/-! ## Indices -/

/-- Column c put back into (p, r). -/
theorem lift_col (h : T3.Reduces [2] T2) (p : Fin 16) (r : Fin 224) (c : Fin (T3.size 2)) :
    h.lift (ix2 p r) c = ix3 p r (⟨c.val, c.isLt⟩ : Fin 224) := by
  funext a; apply Fin.ext
  fin_cases a <;> rfl

/-- Row r put back into (p, u). -/
theorem lift_row (h : T2k.Reduces [1] C2) (p : Fin 16) (u : Fin 1) (r : Fin (T2k.size 1)) :
    h.lift (ix2 p u) r = ix3 p (⟨r.val, r.isLt⟩ : Fin 224) u := by
  funext a; apply Fin.ext
  fin_cases a <;> rfl

/-! ## The layout operations -/

variable {α : Type}

/-- [16, 224] viewed as the column [16, 224, 1]. -/
theorem keepCol_apply (hsc : T2.ShapeCasts T2k) (v : T2.Idx → α) (p : Fin 16) (r : Fin 224) (u : Fin 1) :
    shapeCast T2k v hsc (ix3 p r u) = v (ix2 p r) :=
  shapeCast_apply v hsc _ _ (by
    have hu : u.val = 0 := by omega
    rw [Shape.rowMajor_val_two, Shape.rowMajor_val_three]
    show p.val * 224 + r.val = (p.val * 224 + r.val) * 1 + u.val
    omega)

/-- [16, 1] viewed as [16, 1, 1]. -/
theorem unsqueeze_apply (hsc : C2.ShapeCasts C3) (v : C2.Idx → α) (p : Fin 16) (u w : Fin 1) :
    shapeCast C3 v hsc (ix3 p u w) = v (ix2 p (0 : Fin 1)) :=
  shapeCast_apply v hsc _ _ (by
    have hu : u.val = 0 := by omega
    have hw : w.val = 0 := by omega
    rw [Shape.rowMajor_val_two, Shape.rowMajor_val_three]
    show p.val * 1 + 0 = (p.val * 1 + u.val) * 1 + w.val
    omega)

/-- [16, 1, 1] viewed as [16, 1]. -/
theorem squeeze_apply (hsc : C3.ShapeCasts C2) (v : C3.Idx → α) (p : Fin 16) (u : Fin 1) :
    shapeCast C2 v hsc (ix2 p u) = v (ix3 p (0 : Fin 1) (0 : Fin 1)) :=
  shapeCast_apply v hsc _ _ (by
    have hu : u.val = 0 := by omega
    rw [Shape.rowMajor_val_two, Shape.rowMajor_val_three]
    show (p.val * 1 + 0) * 1 + 0 = p.val * 1 + u.val
    omega)

/-- A per-image value broadcast over the image's entries. -/
theorem spread_apply (hb : C3.Broadcasts T3) (v : C3.Idx → α) (p : Fin 16) (r c : Fin 224) :
    broadcastTo T3 v hb (ix3 p r c) = v (ix3 p (0 : Fin 1) (0 : Fin 1)) := by
  refine broadcastTo_apply v hb (ix3 p r c) (ix3 p (0 : Fin 1) (0 : Fin 1)) fun ax => ?_
  match ax with
  | ⟨0, _⟩ => rfl
  | ⟨1, _⟩ => rfl
  | ⟨2, _⟩ => rfl

/-- Column o of the block of boxes. -/
theorem boxCol_apply (o : Nat) (ho : o < 4) (hs : B2.Slices ![0, o] C2) (v : B2.Idx → α) (p : Fin 16) (u : Fin 1) :
    extractStridedSlice C2 ![0, o] v hs (ix2 p u) = v (ix2 p (⟨o, ho⟩ : Fin 4)) := by
  refine extractStridedSlice_apply ![0, o] v hs (ix2 p u) (ix2 p (⟨o, ho⟩ : Fin 4)) fun ax => ?_
  match ax with
  | ⟨0, _⟩ => show p.val = 0 + p.val; omega
  | ⟨1, _⟩ => show o = o + u.val; omega

/-- The row number and the column number of an entry, as words. -/
theorem rowIota_apply (h : T3.Iotas .tc 32 [1]) (p : Fin 16) (r c : Fin 224) :
    iota .tc T3 32 [1] h (ix3 p r c) = BitVec.ofNat 32 r.val :=
  iota_single_apply .tc T3 32 1 h (ix3 p r c)
theorem colIota_apply (h : T3.Iotas .tc 32 [2]) (p : Fin 16) (r c : Fin 224) :
    iota .tc T3 32 [2] h (ix3 p r c) = BitVec.ofNat 32 c.val :=
  iota_single_apply .tc T3 32 2 h (ix3 p r c)

/-! ## The reductions over the columns -/

theorem sumCols_apply (h : T3.Reduces [2] T2) (hf : FKind.Formats FTy.f32)
    (ha : (0x00000000#32 : BitVec 32) = 0x00000000#32) (x : FVec Ideal T3 .f32) (p : Fin 16) (r : Fin 224) :
    multiReduction .add [2] T2 x 0x00000000#32 h hf ha (ix2 p r) = ∑ c : Fin 224, x (ix3 p r c) := by
  refine (Ideal.multiReduction_add_single x 0x00000000#32 h hf ha (ix2 p r)).trans ?_
  refine Finset.sum_congr rfl fun c _ => ?_
  rw [lift_col]; rfl

theorem minCols_apply (h : T3.Reduces [2] T2) (hf : FKind.Formats FTy.f32)
    (ha : (0x7F800000#32 : BitVec 32) = 0x7F800000#32) (x : FVec Ideal T3 .f32) (p : Fin 16) (r : Fin 224) :
    multiReduction .minimumf [2] T2 x 0x7F800000#32 h hf ha (ix2 p r)
      = (Finset.univ : Finset (Fin 224)).fold min ImageLoss.top fun c => x (ix3 p r c) := by
  refine (multiReduction_minimumf_eq_fold x 0x7F800000#32 h hf ha (ix2 p r)).trans ?_
  rw [h.fold_filter_drop_single]
  have e : (x ∘ h.lift (ix2 p r)) = fun c : Fin 224 => x (ix3 p r c) := funext fun c => by
    show x (h.lift (ix2 p r) c) = _
    rw [lift_col]; rfl
  rw [e]; rfl

theorem maxCols_apply (h : T3.Reduces [2] T2) (hf : FKind.Formats FTy.f32)
    (ha : (0xFF800000#32 : BitVec 32) = 0xFF800000#32) (x : FVec Ideal T3 .f32) (p : Fin 16) (r : Fin 224) :
    multiReduction .maximumf [2] T2 x 0xFF800000#32 h hf ha (ix2 p r)
      = (Finset.univ : Finset (Fin 224)).fold max ImageLoss.bot fun c => x (ix3 p r c) := by
  refine (multiReduction_maximumf_eq_fold x 0xFF800000#32 h hf ha (ix2 p r)).trans ?_
  rw [h.fold_filter_drop_single]
  have e : (x ∘ h.lift (ix2 p r)) = fun c : Fin 224 => x (ix3 p r c) := funext fun c => by
    show x (h.lift (ix2 p r) c) = _
    rw [lift_col]; rfl
  rw [e]; rfl

/-! ## The reductions over the rows of a column -/

theorem sumRows_apply (h : T2k.Reduces [1] C2) (hf : FKind.Formats FTy.f32)
    (ha : (0x00000000#32 : BitVec 32) = 0x00000000#32) (y : FVec Ideal T2k .f32) (p : Fin 16) (u : Fin 1) :
    multiReduction .add [1] C2 y 0x00000000#32 h hf ha (ix2 p u) = ∑ r : Fin 224, y (ix3 p r u) := by
  refine (Ideal.multiReduction_add_single y 0x00000000#32 h hf ha (ix2 p u)).trans ?_
  refine Finset.sum_congr rfl fun r _ => ?_
  rw [lift_row]; rfl

theorem minRows_apply (h : T2k.Reduces [1] C2) (hf : FKind.Formats FTy.f32)
    (ha : (0x7F800000#32 : BitVec 32) = 0x7F800000#32) (y : FVec Ideal T2k .f32) (p : Fin 16) (u : Fin 1) :
    multiReduction .minimumf [1] C2 y 0x7F800000#32 h hf ha (ix2 p u)
      = (Finset.univ : Finset (Fin 224)).fold min ImageLoss.top fun r => y (ix3 p r u) := by
  refine (multiReduction_minimumf_eq_fold y 0x7F800000#32 h hf ha (ix2 p u)).trans ?_
  rw [h.fold_filter_drop_single]
  have e : (y ∘ h.lift (ix2 p u)) = fun r : Fin 224 => y (ix3 p r u) := funext fun r => by
    show y (h.lift (ix2 p u) r) = _
    rw [lift_row]; rfl
  rw [e]; rfl

theorem maxRows_apply (h : T2k.Reduces [1] C2) (hf : FKind.Formats FTy.f32)
    (ha : (0xFF800000#32 : BitVec 32) = 0xFF800000#32) (y : FVec Ideal T2k .f32) (p : Fin 16) (u : Fin 1) :
    multiReduction .maximumf [1] C2 y 0xFF800000#32 h hf ha (ix2 p u)
      = (Finset.univ : Finset (Fin 224)).fold max ImageLoss.bot fun r => y (ix3 p r u) := by
  refine (multiReduction_maximumf_eq_fold y 0xFF800000#32 h hf ha (ix2 p u)).trans ?_
  rw [h.fold_filter_drop_single]
  have e : (y ∘ h.lift (ix2 p u)) = fun r : Fin 224 => y (ix3 p r u) := funext fun r => by
    show y (h.lift (ix2 p u) r) = _
    rw [lift_row]; rfl
  rw [e]; rfl

/-! ## The two stages together, read at image p -/

/-- The image's sum. -/
theorem sumImage_apply (h2 : T3.Reduces [2] T2) (hf : FKind.Formats FTy.f32)
    (ha : (0x00000000#32 : BitVec 32) = 0x00000000#32) (hk : T2.ShapeCasts T2k)
    (h1 : T2k.Reduces [1] C2) (hf' : FKind.Formats FTy.f32)
    (ha' : (0x00000000#32 : BitVec 32) = 0x00000000#32)
    (x : FVec Ideal T3 .f32) (p : Fin 16) (u : Fin 1) :
    multiReduction .add [1] C2 (shapeCast T2k (multiReduction .add [2] T2 x 0x00000000#32 h2 hf ha) hk)
        0x00000000#32 h1 hf' ha' (ix2 p u)
      = ∑ r : Fin 224, ∑ c : Fin 224, x (ix3 p r c) := by
  rw [sumRows_apply]
  refine Finset.sum_congr rfl fun r _ => ?_
  rw [keepCol_apply, sumCols_apply]

/-- The image's least entry. -/
theorem minImage_apply (h2 : T3.Reduces [2] T2) (hf : FKind.Formats FTy.f32)
    (ha : (0x7F800000#32 : BitVec 32) = 0x7F800000#32) (hk : T2.ShapeCasts T2k)
    (h1 : T2k.Reduces [1] C2) (hf' : FKind.Formats FTy.f32)
    (ha' : (0x7F800000#32 : BitVec 32) = 0x7F800000#32)
    (x : FVec Ideal T3 .f32) (p : Fin 16) (u : Fin 1) :
    multiReduction .minimumf [1] C2 (shapeCast T2k (multiReduction .minimumf [2] T2 x 0x7F800000#32 h2 hf ha) hk)
        0x7F800000#32 h1 hf' ha' (ix2 p u)
      = ImageLoss.lo fun r c => x (ix3 p r c) := by
  rw [minRows_apply]
  unfold ImageLoss.lo
  refine congrArg (fun g => (Finset.univ : Finset (Fin 224)).fold min ImageLoss.top g) (funext fun r => ?_)
  rw [keepCol_apply, minCols_apply]

/-- The image's greatest entry. -/
theorem maxImage_apply (h2 : T3.Reduces [2] T2) (hf : FKind.Formats FTy.f32)
    (ha : (0xFF800000#32 : BitVec 32) = 0xFF800000#32) (hk : T2.ShapeCasts T2k)
    (h1 : T2k.Reduces [1] C2) (hf' : FKind.Formats FTy.f32)
    (ha' : (0xFF800000#32 : BitVec 32) = 0xFF800000#32)
    (x : FVec Ideal T3 .f32) (p : Fin 16) (u : Fin 1) :
    multiReduction .maximumf [1] C2 (shapeCast T2k (multiReduction .maximumf [2] T2 x 0xFF800000#32 h2 hf ha) hk)
        0xFF800000#32 h1 hf' ha' (ix2 p u)
      = ImageLoss.hi fun r c => x (ix3 p r c) := by
  rw [maxRows_apply]
  unfold ImageLoss.hi
  refine congrArg (fun g => (Finset.univ : Finset (Fin 224)).fold max ImageLoss.bot g) (funext fun r => ?_)
  rw [keepCol_apply, maxCols_apply]

end BlockLayout

end
-- ==== Proof.BlockValue.lean ====
/-
  What the kernel body stores for one block of 16 images: at image p, the loss of image p of the block under box p
  of the block of boxes.

  The body's arithmetic is the generated payload terms; read at an index they are ImageLoss's stages, the two-stage
  reductions being the row-by-row minimum, maximum and sums of BlockLayout.
-/
import proofs.«403167_j52673478918728_3_alg».proof.Proof.Gen.KernelIdeal.Skeleton
import proofs.«403167_j52673478918728_3_alg».proof.Proof.BlockLayout

noncomputable section

open scoped BigOperators

namespace Cert.KernelIdeal.BlockValue

open Cert.KernelIdeal Cert.KernelIdeal.Gen
open Idealize.ShloMosaic Idealize.ShloMosaic.ValueIdx ImageLoss BlockLayout

/-- A block of images and a block of boxes at the exact instance. -/
abbrev Blk := FVec Ideal S16x224x224 .f32
abbrev BoxBlk := IVec S16x4 32

/-- Image p of the block, and box p of the block of boxes. -/
def img (x : Blk) (p : Fin 16) : Img := fun r c => x (ix3 p r c)
def box (y : BoxBlk) (p : Fin 16) : Box := fun k => y (ix2 p k)

/-! ## The integer operations at an index -/

variable {s : Shape} {w : Nat}

theorem maxsi_apply (a b : IVec s w) (i : s.Idx) : maxsi a b i = IntOp.maxsi (a i) (b i) := rfl
theorem minsi_apply (a b : IVec s w) (i : s.Idx) : minsi a b i = IntOp.minsi (a i) (b i) := rfl
theorem andi_apply (a b : IVec s w) (i : s.Idx) : andi a b i = IntOp.andi (a i) (b i) := rfl
theorem cmpi_apply (q : CmpIPredicate) (a b : IVec s w) (i : s.Idx) : cmpi q a b i = IntOp.cmpi q (a i) (b i) := rfl

/-! ## The shares -/

theorem shares (x : Blk) (p : Fin 16) (r c : Fin 224) : k0_pay2 (F := Ideal) x (ix3 p r c) = share (img x p) r c := by
  unfold k0_pay2
  simp only [divf_apply, subf_apply, addf_apply, broadcast_apply, spread_apply, unsqueeze_apply]
  rw [sumImage_apply]
  simp only [divf_apply, subf_apply, addf_apply, broadcast_apply, spread_apply, unsqueeze_apply]
  rw [minImage_apply, maxImage_apply]
  rfl

/-! ## The box's clipped words -/

theorem left_word (y : BoxBlk) (p : Fin 16) (u v : Fin 1) : k0_pay3 (F := Ideal) y (ix3 p u v) = clip (box y p 0) := by
  unfold k0_pay3
  simp only [unsqueeze_apply, minsi_apply, maxsi_apply, broadcast_apply, boxCol_apply 0 (by decide)]
  rfl

theorem top_word (y : BoxBlk) (p : Fin 16) (u v : Fin 1) : k0_pay4 (F := Ideal) y (ix3 p u v) = clip (box y p 1) := by
  unfold k0_pay4
  simp only [unsqueeze_apply, minsi_apply, maxsi_apply, broadcast_apply, boxCol_apply 1 (by decide)]
  rfl

theorem right_word (y : BoxBlk) (p : Fin 16) (u : Fin 1) : k0_pay5 (F := Ideal) y (ix2 p u) = IntOp.maxsi 0#32 (box y p 2) := by
  unfold k0_pay5
  simp only [maxsi_apply, broadcast_apply, boxCol_apply 2 (by decide)]
  rfl

/-! ## The block's result at image p -/

theorem block_loss (x : Blk) (y : BoxBlk) (p : Fin 16) (u : Fin 1) :
    k0_pay1 (F := Ideal) (k0_pay2 x) y (k0_pay3 (F := Ideal) y) (k0_pay4 (F := Ideal) y) 223#32 (k0_pay5 (F := Ideal) y) (ix2 p u) = outside (img x p) (box y p) := by
  unfold k0_pay1
  rw [squeeze_apply, unsqueeze_apply, sumImage_apply]
  unfold outside
  refine Finset.sum_congr rfl fun r _ => ?_
  refine Finset.sum_congr rfl fun c _ => ?_
  simp only [mulf_apply, subf_apply, broadcast_apply, sitofp_apply, extui_apply, andi_apply, cmpi_apply, spread_apply,
    unsqueeze_apply, minsi_apply, maxsi_apply, shares, left_word, top_word, right_word,
    boxCol_apply 3 (by decide)]
  refine congrArg (share (img x p) r c * ·) ?_
  show Ideal.ofBits .f32 0x3F800000#32 - (((BitVec.setWidth 32 _).toInt : ℝ) : EReal) = _
  rw [toInt_setWidth_bit, rowIota_apply, colIota_apply]
  rfl

end Cert.KernelIdeal.BlockValue

end
-- ==== Proof.KernelValue.lean ====
/-
  The kernel's run, read: the result is the mean of the images' losses.

  Grid point t stages images 16 t … 16 t + 15 and their boxes, and writes back rows 16 t … 16 t + 15 of the
  [2048, 1] array of losses; what it writes at row p of its block is the loss of image 16 t + p. The 128 blocks tile the
  array, so after the region it holds every image's loss, and the host lines after it take the mean.
-/
import proofs.«403167_j52673478918728_3_alg».proof.Proof.Gen.KernelIdeal.Frame
import proofs.«403167_j52673478918728_3_alg».proof.Proof.BlockValue
import proofs.«403167_j52673478918728_3_alg».proof.Proof.MeanLoss
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx ImageLoss

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The array of images and the array of boxes as the run finds them. -/
abbrev images (c : Dev nD) : S2048x224x224.Idx → EReal := m ((c : Thread nD τ).loc main_arg0)
abbrev boxes (c : Dev nD) : S2048x4.Idx → BitVec 32 := m ((c : Thread nD τ).loc main_arg1)

/-- The images' losses laid out as the region's result array [2048, 1]. -/
def column (c : Dev nD) : S2048x1.Idx → EReal :=
  fun i => lossOf (images m c) (boxes m c) (ix1 (⟨(i 0).val, (i 0).isLt⟩ : Fin 2048))

/-! ## The grid -/

theorem point_lt (t : Fin cfg0.N) : t.val < 128 := lt_of_lt_of_eq t.isLt (N_0 : cfg0.N = 128)

/-- The image that row p of point t's blocks is. -/
def imageAt (t : Fin cfg0.N) (p : Fin 16) : Fin 2048 := ⟨t.val * 16 + p.val, by have := point_lt t; have := p.isLt; omega⟩

/-- Every window's block index at point t is (t, 0, …): decided over the grid. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## The staged blocks, by coordinates -/

theorem images_block (c : Dev nD) (t : Fin cfg0.N) (p : Fin 16) (r cc : Fin 224) :
    (iblk m c 0 t : FVec Ideal S16x224x224 .f32) (ix3 p r cc) = images m c (ix3 (imageAt t p) r cc) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 16 + 1 * p.val = t.val * 16 + p.val; rw [e0]; omega
  | ⟨1, _⟩ => show win0_0.index t (1 : Fin 3) * 224 + 1 * r.val = r.val; rw [e1]; omega
  | ⟨2, _⟩ => show win0_0.index t (2 : Fin 3) * 224 + 1 * cc.val = cc.val; rw [e2]; omega

theorem boxes_block (c : Dev nD) (t : Fin cfg0.N) (p : Fin 16) (k : Fin 4) :
    (iblk m c 1 t : IVec S16x4 32) (ix2 p k) = boxes m c (ix2 (imageAt t p) k) := by
  obtain ⟨-, -, -, e3, e4, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 16 + 1 * p.val = t.val * 16 + p.val; rw [e3]; omega
  | ⟨1, _⟩ => show win0_1.index t (1 : Fin 2) * 4 + 1 * k.val = k.val; rw [e4]; omega

/-! ## What a point writes back -/

/-- Row j of what the body leaves at point t is the loss of the image under it. -/
theorem point_value (c : Dev nD) (t : Fin cfg0.N) (j : S16x1.Idx) :
    k0_pay1 (F := Ideal) (k0_pay2 (iblk m c 0 t)) (iblk m c 1 t) (k0_pay3 (F := Ideal) (iblk m c 1 t))
        (k0_pay4 (F := Ideal) (iblk m c 1 t)) 223#32 (k0_pay5 (F := Ideal) (iblk m c 1 t)) j
      = column m c (((cfg0.win 2).blk t).view.emb j) := by
  obtain ⟨p, u, rfl⟩ : ∃ (p : Fin 16) (u : Fin 1), j = ix2 p u := ⟨j 0, j 1, eq_ix2 j⟩
  obtain ⟨-, -, -, -, -, e5, -⟩ := idx_facts t
  refine (BlockValue.block_loss (iblk m c 0 t) (iblk m c 1 t) p u).trans ?_
  have hb : imageOf (ix1 (⟨((((cfg0.win 2).blk t).view.emb (ix2 p u)) 0).val, ((((cfg0.win 2).blk t).view.emb (ix2 p u)) 0).isLt⟩ : Fin 2048))
      = imageAt t p :=
    Fin.ext (by show win0_2.index t (0 : Fin 2) * 16 + 1 * p.val = t.val * 16 + p.val; rw [e5]; omega)
  show _ = outside (fun r cc => images m c (ix3 (imageOf _) r cc)) (fun k => boxes m c (ix2 (imageOf _) k))
  rw [hb]
  exact congrArg₂ outside (funext fun r => funext fun cc => images_block m c t p r cc)
    (funext fun k => boxes_block m c t p k)

/-- What point t writes back is its block of the array of losses. -/
theorem flushed_eq (c : Dev nD) (t : Fin cfg0.N) :
    (dats m 0 c).flushed 2 t = ((cfg0.win 2).blk t).view.read (Elt Ideal) (column m c) := by
  show (cfg0.win 2).cut (grid0.coords t) ((dats m 0 c).after 2 t) = _
  rw [after0_2]
  unfold out0_2
  rw [View.canon_unit_zero hz2]
  simp only [View.ld_unit_zero (S := S16x224x224) hz3, View.ld_unit_zero (S := S16x4) hz2]
  funext j
  exact point_value m c t j

/-! ## The array after the region -/

/-- Row i of the array lies in the block of point i / 16. -/
theorem covered (i : S2048x1.Idx) : ∃ t : Fin cfg0.N, (cfg0.win 2).flush t = true ∧ i ∈ ((cfg0.win 2).blk t).view.set := by
  have h0 : (i 0).val < 2048 := (i 0).isLt
  have h1 : (i 1).val < 1 := (i 1).isLt
  let t : Fin cfg0.N := ⟨(i 0).val / 16, by rw [show cfg0.N = 128 from N_0]; omega⟩
  obtain ⟨-, -, -, -, -, e5, e6⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 16 ≤ (i 0).val ∧ (i 0).val < win0_2.index t (0 : Fin 2) * 16 + 16
    rw [e5]; show (i 0).val / 16 * 16 ≤ (i 0).val ∧ (i 0).val < (i 0).val / 16 * 16 + 16; omega
  | ⟨1, _⟩ =>
    show win0_2.index t (1 : Fin 2) * 1 ≤ (i 1).val ∧ (i 1).val < win0_2.index t (1 : Fin 2) * 1 + 1
    rw [e6]; omega

/-- After the region the result array holds every image's loss. -/
theorem final (c : Dev nD) : (dats m 0 c).arrAt 2 cfg0.N = column m c :=
  (dats m 0 c).arrAt_eq_of_cover 2 (column m c) (fun t _ => flushed_eq m c t) (covered)

/-! ## The host lines after the region -/

/-- The array of losses viewed as a vector is the vector of losses. -/
theorem column_cast (c : Dev nD) : shapeCast S2048 (column m c) shapeCasts_S2048x1_S2048 = lossOf (images m c) (boxes m c) := by
  funext j
  refine (shapeCast_apply (column m c) shapeCasts_S2048x1_S2048 j (ix2 (⟨(j 0).val, (j 0).isLt⟩ : Fin 2048) (0 : Fin 1)) (by
    rw [Shape.rowMajor_val_two, Shape.rowMajor_val_one]
    show (j 0).val * 1 + 0 = (j 0).val
    omega)).trans ?_
  show lossOf _ _ (ix1 _) = lossOf _ _ j
  exact congrArg _ (funext fun a => by match a with | ⟨0, _⟩ => rfl)

/-- The result buffer after the lines that follow the region: the mean of the losses. -/
theorem tail_value (c : Dev nD) :
    Pipeline.afterTail₀ cfgs (dats m) 0 (V0 m) [hostOps1] c main_v3
      = meanOf (lossOf (images m c) (boxes m c)) reducesTo_S2048_S_d0 h_S_ := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v0) = column m c from
    (Pipeline.withArrays_arr spec0 launch0.win.arr_inj c _ _ 2).trans (final m c)]
  show meanOf (shapeCast S2048 (column m c) shapeCasts_S2048x1_S2048) reducesTo_S2048_S_d0 h_S_ = _
  rw [column_cast]

/-! ## The run -/

theorem run : θ_run defs (onTc (τ := τ) (main (F := Ideal))) ⟨m, fun _ => 0, ρ⟩ fun r => ∀ c : Dev nD,
      r.2.mem ((c.tc : Thread nD τ).loc main_v3) = meanOf (lossOf (images m c) (boxes m c)) reducesTo_S2048_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 rfl (by decide))).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.lean ====
/-
  The kernel and the reference compute one number: the mean, over the 2048 images, of the share of each image's
  rescaled mass that falls outside its clipped box.

  The kernel handles 16 images per grid point and reduces each image over its columns and then its rows; the
  reference flattens each image and reduces it in one pass. At the exact instance the minimum, the maximum and the sum
  do not depend on that grouping, so both programs leave the same per-image loss (ImageLoss) for every image
  (KernelValue for the kernel, RefImage for the reference), and both end with the same mean on the host (MeanLoss).
  The three frames: the kernel's two are the generated ones, the reference's is its generated run with the result
  dropped. The idealization rewrote nothing, so it preserves the kernel trivially.
-/
import proofs.«403167_j52673478918728_3_alg».proof.Defs
import proofs.«403167_j52673478918728_3_alg».proof.Proof.Gen.Kernel
import proofs.«403167_j52673478918728_3_alg».proof.Proof.Gen.Kernel.Skeleton
import proofs.«403167_j52673478918728_3_alg».proof.Proof.Gen.Kernel.Launch
import proofs.«403167_j52673478918728_3_alg».proof.Proof.Gen.Kernel.Points
import proofs.«403167_j52673478918728_3_alg».proof.Proof.Gen.Kernel.Frame
import proofs.«403167_j52673478918728_3_alg».proof.Proof.Gen.KernelIdeal
import proofs.«403167_j52673478918728_3_alg».proof.Proof.Gen.KernelIdeal.Skeleton
import proofs.«403167_j52673478918728_3_alg».proof.Proof.Gen.KernelIdeal.Launch
import proofs.«403167_j52673478918728_3_alg».proof.Proof.Gen.KernelIdeal.Points
import proofs.«403167_j52673478918728_3_alg».proof.Proof.Gen.KernelIdeal.Frame
import proofs.«403167_j52673478918728_3_alg».proof.Proof.Gen.ReferenceIdeal
import proofs.«403167_j52673478918728_3_alg».proof.Proof.Gen.Pre_finite_inputs
import proofs.«403167_j52673478918728_3_alg».proof.Proof.Gen.ReferenceIdeal.Run
import proofs.«403167_j52673478918728_3_alg».proof.Proof.Gen.ReferenceIdeal.Read
import proofs.«403167_j52673478918728_3_alg».proof.Proof.MeanLoss
import proofs.«403167_j52673478918728_3_alg».proof.Proof.RefImage
import proofs.«403167_j52673478918728_3_alg».proof.Proof.KernelValue
import Idealize.ShloMosaic.Adequacy
import Idealize.ShloMosaic.Init

noncomputable section

namespace Cert.Proof

open Idealize.ShloMosaic Idealize.ShloMosaic.ValueIdx Idealize.SL.Sem ImageLoss

/-- The reference's result is the mean of the images' losses. -/
theorem reference_result (X : Cert.ReferenceIdeal.RefImage.Arr) (B : Cert.ReferenceIdeal.RefImage.Boxes) :
    Cert.ReferenceIdeal.Read.val_main_v63 (F := Ideal) X B
      = meanOf (lossOf X B) Cert.ReferenceIdeal.Gen.reducesTo_S2048_S_d0 Cert.ReferenceIdeal.Gen.h_S_ := by
  have e : Cert.ReferenceIdeal.Read.val_main_v61 (F := Ideal) X B = lossOf X B := funext fun j => by
    obtain ⟨b, rfl⟩ : ∃ b : Fin 2048, j = ix1 b := ⟨j 0, eq_ix1 j⟩
    exact Cert.ReferenceIdeal.RefImage.image_loss X B b
  unfold Cert.ReferenceIdeal.Read.val_main_v63 Cert.ReferenceIdeal.Read.val_main_v62
  rw [e]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end with the mean of the images' losses. -/
theorem algebraic : Cert.algebraic_KernelIdeal_ReferenceIdeal := by
  intro m ρ m' ρ' _ hagree
  refine ⟨fun c => meanOf (lossOf (Cert.KernelIdeal.KValue.images m c) (Cert.KernelIdeal.KValue.boxes m c))
      Cert.KernelIdeal.Gen.reducesTo_S2048_S_d0 Cert.KernelIdeal.Gen.h_S_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, reference_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
